-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S9992x16 : Shape := ⟨2, ![9992, 16]⟩
abbrev S1x9992 : Shape := ⟨2, ![1, 9992]⟩
abbrev S1 : Shape := ⟨1, ![1]⟩
abbrev S4194304x1 : Shape := ⟨2, ![4194304, 1]⟩
abbrev S4194304 : Shape := ⟨1, ![4194304]⟩
abbrev S_ : Shape := ⟨0, ![]⟩

class Facts : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  bcast_S_S9992x16 : S_.BroadcastsInDim S9992x16 (![] : Fin 0 → Fin S9992x16.rank)
  reducesTo_S9992x16_S_d0_1 : S9992x16.ReducesTo [0, 1] S_
  h_S_ : 0 < S_.numel
  bcast_S_S1x9992 : S_.BroadcastsInDim S1x9992 (![] : Fin 0 → Fin S1x9992.rank)
  reducesTo_S1x9992_S_d0_1 : S1x9992.ReducesTo [0, 1] S_
  bcast_S_S1 : S_.BroadcastsInDim S1 (![] : Fin 0 → Fin S1.rank)
  reducesTo_S1_S_d0 : S1.ReducesTo [0] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_v1 : IVec S4194304 32) (main_v3 : IVec S4194304 32) (main_v17 : IVec S_ 1) : IVec S_ 1 :=
  let main_c_4 : IVec S_ 32 := constantI S_ 32 0#32
  let main_v18 : IVec S4194304 32 := broadcastInDim S4194304 ![] bcast_S_S4194304 main_c_4
  let main_v19 : IVec S4194304 1 := cmpi .sge main_v1 main_v18
  let main_c_5 : IVec S_ 32 := constantI S_ 32 6040#32
  let main_v20 : IVec S4194304 32 := broadcastInDim S4194304 ![] bcast_S_S4194304 main_c_5
  let main_v21 : IVec S4194304 1 := cmpi .slt main_v1 main_v20
  let main_v22 : IVec S4194304 1 := andi main_v19 main_v21
  let main_c_6 : IVec S_ 1 := constantI S_ 1 1#1
  let main_v23 : IVec S_ 1 := (fun x v => Host.reduce IntOp.andi x v reducesTo_S4194304_S_d0 h_S_) main_v22 main_c_6
  let main_v24 : IVec S_ 1 := andi main_v17 main_v23
  let main_c_7 : IVec S_ 32 := constantI S_ 32 0#32
  let main_v25 : IVec S4194304 32 := broadcastInDim S4194304 ![] bcast_S_S4194304 main_c_7
  let main_v26 : IVec S4194304 1 := cmpi .sge main_v3 main_v25
  let main_c_8 : IVec S_ 32 := constantI S_ 32 3952#32
  let main_v27 : IVec S4194304 32 := broadcastInDim S4194304 ![] bcast_S_S4194304 main_c_8
  let main_v28 : IVec S4194304 1 := cmpi .slt main_v3 main_v27
  let main_v29 : IVec S4194304 1 := andi main_v26 main_v28
  let main_c_9 : IVec S_ 1 := constantI S_ 1 1#1
  let main_v30 : IVec S_ 1 := (fun x v => Host.reduce IntOp.andi x v reducesTo_S4194304_S_d0 h_S_) main_v29 main_c_9
  let main_v31 : IVec S_ 1 := andi main_v24 main_v30
  main_v31

def fn {F : FTy → Type} [FloatOps F] (main_arg0 : IVec S4194304x3 32) (main_arg1 : FVec F S9992x16 .f32) (main_arg2 : FVec F S1x9992 .f32) (main_arg3 : FVec F S1 .f32) : IVec S_ 1 :=
  let main_v0 : IVec S4194304x1 32 := (extractStridedSlice S4194304x1 ![0, 0] · slices_S4194304x3_S4194304x1_0_0) main_arg0
  let main_v1 : IVec S4194304 32 := shapeCast S4194304 main_v0 shapeCasts_S4194304x1_S4194304
  let main_v2 : IVec S4194304x1 32 := (extractStridedSlice S4194304x1 ![0, 1] · slices_S4194304x3_S4194304x1_0_1) main_arg0
  let main_v3 : IVec S4194304 32 := shapeCast S4194304 main_v2 shapeCasts_S4194304x1_S4194304
  let main_v4 : FVec F S9992x16 .f32 := Host.absf main_arg1
  let main_cst : FVec F S_ .f32 := constant S_ .f32 0x7F800000#32
  let main_v5 : FVec F S9992x16 .f32 := broadcastInDim S9992x16 ![] bcast_S_S9992x16 main_cst
  let main_v6 : IVec S9992x16 1 := cmpf .olt main_v4 main_v5
  let main_c : IVec S_ 1 := constantI S_ 1 1#1
  let main_v7 : IVec S_ 1 := (fun x v => Host.reduce IntOp.andi x v reducesTo_S9992x16_S_d0_1 h_S_) main_v6 main_c
  let main_v8 : FVec F S1x9992 .f32 := Host.absf main_arg2
  let main_cst_0 : FVec F S_ .f32 := constant S_ .f32 0x7F800000#32
  let main_v9 : FVec F S1x9992 .f32 := broadcastInDim S1x9992 ![] bcast_S_S1x9992 main_cst_0
  let main_v10 : IVec S1x9992 1 := cmpf .olt main_v8 main_v9
  let main_c_1 : IVec S_ 1 := constantI S_ 1 1#1
  let main_v11 : IVec S_ 1 := (fun x v => Host.reduce IntOp.andi x v reducesTo_S1x9992_S_d0_1 h_S_) main_v10 main_c_1
  let main_v12 : IVec S_ 1 := andi main_v7 main_v11
  let main_v13 : FVec F S1 .f32 := Host.absf main_arg3
  let main_cst_2 : FVec F S_ .f32 := constant S_ .f32 0x7F800000#32
  let main_v14 : FVec F S1 .f32 := broadcastInDim S1 ![] bcast_S_S1 main_cst_2
  let main_v15 : IVec S1 1 := cmpf .olt main_v13 main_v14
  let main_c_3 : IVec S_ 1 := constantI S_ 1 1#1
  let main_v16 : IVec S_ 1 := (fun x v => Host.reduce IntOp.andi x v reducesTo_S1_S_d0 h_S_) main_v15 main_c_3
  let main_v17 : IVec S_ 1 := andi main_v12 main_v16
  fn_part1 (F := F) main_v1 main_v3 main_v17
-- ==== Kernel.lean ====
abbrev S4194304x3 : Shape := ⟨2, ![4194304, 3]⟩
abbrev S9992x16 : Shape := ⟨2, ![9992, 16]⟩
abbrev S1x9992 : Shape := ⟨2, ![1, 9992]⟩
abbrev S1 : Shape := ⟨1, ![1]⟩
abbrev S4194304x1 : Shape := ⟨2, ![4194304, 1]⟩
abbrev S4194304 : Shape := ⟨1, ![4194304]⟩
abbrev S1x16 : Shape := ⟨2, ![1, 16]⟩
abbrev S16 : Shape := ⟨1, ![16]⟩
abbrev S_ : Shape := ⟨0, ![]⟩
abbrev S1x1 : Shape := ⟨2, ![1, 1]⟩
abbrev S9992 : Shape := ⟨1, ![9992]⟩
abbrev S32768x128 : Shape := ⟨2, ![32768, 128]⟩
abbrev S4096x128 : Shape := ⟨2, ![4096, 128]⟩

abbrev nBuf : Space → Nat
  | .hbm => 84
  | .vmem => 9
  | .smem => 0
  | _ => 0

abbrev bufTy : (tb : Table) → Fin (tcTables nBuf tb) → BufTy
  | .hbm, ⟨0, _⟩ => ⟨S4194304x3, .i32⟩
  | .hbm, ⟨1, _⟩ => ⟨S9992x16, .f32⟩
  | .hbm, ⟨2, _⟩ => ⟨S1x9992, .f32⟩
  | .hbm, ⟨3, _⟩ => ⟨S1, .f32⟩
  | .hbm, ⟨4, _⟩ => ⟨S4194304x1, .i32⟩
  | .hbm, ⟨5, _⟩ => ⟨S4194304, .i32⟩
  | .hbm, ⟨6, _⟩ => ⟨S4194304x1, .i32⟩
  | .hbm, ⟨7, _⟩ => ⟨S4194304, .i32⟩
  | .hbm, ⟨8, _⟩ => ⟨S4194304x1, .i32⟩
  | .hbm, ⟨9, _⟩ => ⟨S4194304, .i32⟩
  | .hbm, ⟨10, _⟩ => ⟨S1x16, .f32⟩
  | .hbm, ⟨11, _⟩ => ⟨S16, .f32⟩
  | .hbm, ⟨12, _⟩ => ⟨S1x16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x1, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4194304, .i32⟩
  | .hbm, ⟨43, _⟩ => ⟨S4194304, .i32⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4194304, .i32⟩
  | .hbm, ⟨51, _⟩ => ⟨S4194304, .i32⟩
  | .hbm, ⟨52, _⟩ => ⟨S_, .i32⟩
  | .hbm, ⟨53, _⟩ => ⟨S4194304, .i32⟩
  | .hbm, ⟨54, _⟩ => ⟨S4194304, .i32⟩
  | .hbm, ⟨55, _⟩ => ⟨S9992, .f32⟩
  | .hbm, ⟨56, _⟩ => ⟨S_, .i32⟩
  | .hbm, ⟨57, _⟩ => ⟨S4194304, .i32⟩
  | .hbm, ⟨58, _⟩ => ⟨S4194304, .i1⟩
  | .hbm, ⟨59, _⟩ => ⟨S_, .i32⟩
  | .hbm, ⟨60, _⟩ => ⟨S4194304, .i32⟩
  | .hbm, ⟨61, _⟩ => ⟨S4194304, .i32⟩
  | .hbm, ⟨62, _⟩ => ⟨S4194304, .i32⟩
  | .hbm, ⟨63, _⟩ => ⟨S4194304x1, .i32⟩
  | .hbm, ⟨64, _⟩ => ⟨S4194304, .f32⟩
  | .hbm, ⟨65, _⟩ => ⟨S_, .i32⟩
  | .hbm, ⟨66, _⟩ => ⟨S4194304, .i32⟩
  | .hbm, ⟨67, _⟩ => ⟨S4194304, .i32⟩
  | .hbm, ⟨68, _⟩ => ⟨S_, .i32⟩
  | .hbm, ⟨69, _⟩ => ⟨S4194304, .i32⟩
  | .hbm, ⟨70, _⟩ => ⟨S4194304, .i1⟩
  | .hbm, ⟨71, _⟩ => ⟨S_, .i32⟩
  | .hbm, ⟨72, _⟩ => ⟨S4194304, .i32⟩
  | .hbm, ⟨73, _⟩ => ⟨S4194304, .i32⟩
  | .hbm, ⟨74, _⟩ => ⟨S4194304, .i32⟩
  | .hbm, ⟨75, _⟩ => ⟨S4194304x1, .i32⟩
  | .hbm, ⟨76, _⟩ => ⟨S4194304, .f32⟩
  | .hbm, ⟨77, _⟩ => ⟨S4194304, .f32⟩
  | .hbm, ⟨78, _⟩ => ⟨S32768x128, .f32⟩
  | .hbm, ⟨79, _⟩ => ⟨S32768x128, .i32⟩
  | .hbm, ⟨80, _⟩ => ⟨S32768x128, .f32⟩
  | .hbm, ⟨81, _⟩ => ⟨S32768x128, .f32⟩
  | .hbm, ⟨82, _⟩ => ⟨S4194304x1, .f32⟩
  | .hbm, ⟨83, _⟩ => ⟨S4194304x1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S4194304x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_c_6 : Ref sig .tc := ⟨.hbm, 47, rfl⟩
abbrev main_c_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev main_v52 : Ref sig .tc := ⟨.hbm, 82, rfl⟩
abbrev main_v53 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  slices_S9992x16_S1x16_0_0 : S9992x16.Slices ![0, 0] S1x16
  shapeCasts_S1x16_S16 : S1x16.ShapeCasts S16
  slices_S9992x16_S1x16_1_0 : S9992x16.Slices ![1, 0] S1x16
  bcast_S_S16 : S_.BroadcastsInDim S16 (![] : Fin 0 → Fin S16.rank)
  reducesTo_S16_S_d0 : S16.ReducesTo [0] S_
  h_S_ : 0 < S_.numel
  shapeCasts_S1_S_ : S1.ShapeCasts S_
  shapeCasts_S_S1x1 : S_.ShapeCasts S1x1
  bcast_S_S4194304 : S_.BroadcastsInDim S4194304 (![] : Fin 0 → Fin S4194304.rank)
  shapeCasts_S1x9992_S9992 : S1x9992.ShapeCasts S9992
  bcast_S4194304_S4194304x1_0 : S4194304.BroadcastsInDim S4194304x1 (![0] : Fin 1 → Fin S4194304x1.rank)
  shapeCasts_S4194304_S32768x128 : S4194304.ShapeCasts S32768x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x128 : S1x1.Broadcasts S4096x128
  natLt_1_32 : 1 < 32
  shapeCasts_S32768x128_S4194304x1 : S32768x128.ShapeCasts S4194304x1
  gather_S9992_S4194304x1_S4194304_n_0_n_n_0_1_1_wf : GatherDims.WF S9992 S4194304x1 S4194304 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .i32 = 32 ∨ (Rect.block (s := S32768x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S32768x128.size a
  hwx0_4 : ∀ i : grid0.Coords, EltTy.bits .f32 = 32 ∨ (Rect.block (s := S32768x128) S4096x128.size (cc0_transform_4 i) (hinb0_4 i)).WholeWords (EltTy.packing .f32)

variable [Facts₀]

def gather_S9992_S4194304x1_S4194304_n_0_n_n_0_1_1 : GatherDims S9992 S4194304x1 S4194304 where
  offsetDims := []
  collapsedSliceDims := [0]
  operandBatchingDims := []
  startIndicesBatchingDims := []
  startIndexMap := [0]
  indexVectorDim := 1
  sliceSizes := ![1]
  wf := gather_S9992_S4194304x1_S4194304_n_0_n_n_0_1_1_wf

abbrev win0_0 : Pipeline.Window sig grid0 :=
  Pipeline.Window.ofSpec (Memref.whole main_v49) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S9992x16 : Shape := ⟨2, ![9992, 16]⟩
abbrev S1x9992 : Shape := ⟨2, ![1, 9992]⟩
abbrev S1 : Shape := ⟨1, ![1]⟩
abbrev S4194304x1 : Shape := ⟨2, ![4194304, 1]⟩
abbrev S4194304 : Shape := ⟨1, ![4194304]⟩
abbrev S_ : Shape := ⟨0, ![]⟩
abbrev S1x16 : Shape := ⟨2, ![1, 16]⟩
abbrev S16 : Shape := ⟨1, ![16]⟩
abbrev S4194304x2 : Shape := ⟨2, ![4194304, 2]⟩

abbrev nBuf : Space → Nat
  | .hbm => 87
  | .vmem => 0
  | .smem => 0
  | _ => 0

abbrev bufTy : (tb : Table) → Fin (tcTables nBuf tb) → BufTy
  | .hbm, ⟨0, _⟩ => ⟨S4194304x3, .i32⟩
  | .hbm, ⟨1, _⟩ => ⟨S9992x16, .f32⟩
  | .hbm, ⟨2, _⟩ => ⟨S1x9992, .f32⟩
  | .hbm, ⟨3, _⟩ => ⟨S1, .f32⟩
  | .hbm, ⟨4, _⟩ => ⟨S4194304x1, .i32⟩
  | .hbm, ⟨5, _⟩ => ⟨S4194304, .i32⟩
  | .hbm, ⟨6, _⟩ => ⟨S4194304x1, .i32⟩
  | .hbm, ⟨7, _⟩ => ⟨S4194304, .i32⟩
  | .hbm, ⟨8, _⟩ => ⟨S4194304x1, .i32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S4194304, .f32⟩
  | .hbm, ⟨14, _⟩ => ⟨S4194304x1, .f32⟩
  | .hbm, ⟨15, _⟩ => ⟨S1x16, .f32⟩
  | .hbm, ⟨16, _⟩ => ⟨S16, .f32⟩
  | .hbm, ⟨17, _⟩ => ⟨S1x16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i32⟩
  | .hbm, ⟨42, _⟩ => ⟨S4194304, .i32⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S_, .i32⟩
  | .hbm, ⟨49, _⟩ => ⟨S4194304, .i32⟩
  | .hbm, ⟨50, _⟩ => ⟨S4194304, .i32⟩
  | .hbm, ⟨51, _⟩ => ⟨S4194304x1, .i32⟩
  | .hbm, ⟨52, _⟩ => ⟨S4194304x1, .i32⟩
  | .hbm, ⟨53, _⟩ => ⟨S4194304x2, .i32⟩
  | .hbm, ⟨54, _⟩ => ⟨S4194304, .f32⟩
  | .hbm, ⟨55, _⟩ => ⟨S_, .i32⟩
  | .hbm, ⟨56, _⟩ => ⟨S4194304, .i32⟩
  | .hbm, ⟨57, _⟩ => ⟨S4194304, .i32⟩
  | .hbm, ⟨58, _⟩ => ⟨S_, .i32⟩
  | .hbm, ⟨59, _⟩ => ⟨S4194304, .i32⟩
  | .hbm, ⟨60, _⟩ => ⟨S4194304, .i1⟩
  | .hbm, ⟨61, _⟩ => ⟨S_, .i32⟩
  | .hbm, ⟨62, _⟩ => ⟨S4194304, .i32⟩
  | .hbm, ⟨63, _⟩ => ⟨S4194304, .i32⟩
  | .hbm, ⟨64, _⟩ => ⟨S4194304, .i32⟩
  | .hbm, ⟨65, _⟩ => ⟨S_, .i32⟩
  | .hbm, ⟨66, _⟩ => ⟨S4194304, .i32⟩
  | .hbm, ⟨67, _⟩ => ⟨S4194304, .i32⟩
  | .hbm, ⟨68, _⟩ => ⟨S4194304x1, .i32⟩
  | .hbm, ⟨69, _⟩ => ⟨S4194304x1, .i32⟩
  | .hbm, ⟨70, _⟩ => ⟨S4194304x2, .i32⟩
  | .hbm, ⟨71, _⟩ => ⟨S4194304, .f32⟩
  | .hbm, ⟨72, _⟩ => ⟨S4194304, .f32⟩
  | .hbm, ⟨73, _⟩ => ⟨S_, .f32⟩
  | .hbm, ⟨74, _⟩ => ⟨S4194304, .f32⟩
  | .hbm, ⟨75, _⟩ => ⟨S4194304, .f32⟩
  | .hbm, ⟨76, _⟩ => ⟨S4194304, .f32⟩
  | .hbm, ⟨77, _⟩ => ⟨S4194304, .f32⟩
  | .hbm, ⟨78, _⟩ => ⟨S4194304, .f32⟩
  | .hbm, ⟨79, _⟩ => ⟨S4194304, .f32⟩
  | .hbm, ⟨80, _⟩ => ⟨S_, .f32⟩
  | .hbm, ⟨81, _⟩ => ⟨S4194304, .f32⟩
  | .hbm, ⟨82, _⟩ => ⟨S4194304, .f32⟩
  | .hbm, ⟨83, _⟩ => ⟨S_, .f32⟩
  | .hbm, ⟨84, _⟩ => ⟨S4194304, .f32⟩
  | .hbm, ⟨85, _⟩ => ⟨S4194304, .f32⟩
  | .hbm, ⟨86, _⟩ => ⟨S4194304x1, .f32⟩
  | _, _ => ⟨S4194304x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S9992x16_S1x16_0_0 : S9992x16.Slices ![0, 0] S1x16
  shapeCasts_S1x16_S16 : S1x16.ShapeCasts S16
  slices_S9992x16_S1x16_1_0 : S9992x16.Slices ![1, 0] S1x16
  bcast_S_S16 : S_.BroadcastsInDim S16 (![] : Fin 0 → Fin S16.rank)
  reducesTo_S16_S_d0 : S16.ReducesTo [0] S_
  h_S_ : 0 < S_.numel
  concatenates_S4194304x1_S4194304x1_S4194304x2_d1 : Shape.Concatenates [S4194304x1, S4194304x1] S4194304x2 1
  shapeCasts_S1_S_ : S1.ShapeCasts S_
  gather_S1x9992_S4194304x2_S4194304_n_01_n_n_01_1_11_wf : GatherDims.WF S1x9992 S4194304x2 S4194304 [] [0, 1] [] [0, 1] [] 1 ![1, 1]

variable [Facts₀]

def gather_S1x9992_S4194304x2_S4194304_n_01_n_n_01_1_11 : GatherDims S1x9992 S4194304x2 S4194304 where
  offsetDims := []
  collapsedSliceDims := [0, 1]
  operandBatchingDims := []
  startIndicesBatchingDims := []
  startIndexMap := [0, 1]
  indexVectorDim := 1
  sliceSizes := ![1, 1]
  wf := gather_S1x9992_S4194304x2_S4194304_n_01_n_n_01_1_11_wf

class Facts : Prop extends Facts₀ where

variable [Facts]
-- ==== Proof.Spec.lean ====
/-
  What both programs compute, one batch row at a time, as plain functions of the argument arrays.

  A row of `x` is (user id, movie id, rating). With `lw` the weight row of length 9992 = 6040 + 3952 (user weights, then movie
  weights), `b` the bias and `I` the batch-independent pairwise-interaction scalar, the prediction of row `p` is
      sigm ( lw[u_p] + lw[6040 + m_p] + b + I ),   sigm z = 1 / (1 + e^(-z)),
  and the recommendation flag of row `p` is 1 when the rating is at least 3 and 0 otherwise.

  Also here: the few facts about 32-bit words that let each program's own index arithmetic be read as "position `w` of the weight
  row" when the id is an id of its field — a clip to the field and NumPy's negative-index rule both leave such a word alone, and
  the gather's clamp to the row never binds.
-/
import Idealize.ShloMosaic.PureOps.Ideal
import Idealize.ShloMosaic.PureOps.Ideal.Laws
import Idealize.ShloMosaic.Lib.ValueIdx
import Idealize.ShloMosaic.Lib.Affine
import Idealize.ShloMosaic.Lib.StableHlo.Predicate

noncomputable section

namespace Cert.FmSpec

open Idealize.ShloMosaic Idealize.ShloMosaic.ValueIdx

/-- Position of a word in the weight row, cut at the row's last entry (the cut never binds for an id of its field). -/
def col (w : BitVec 32) : Fin 9992 := ⟨min w.toNat 9991, by omega⟩

/-- The logistic function as both programs spell it: 1 / (1 + e^(-z)); the word for 1.0 is left unread. -/
def sigm (z : Ideal .f32) : Ideal .f32 :=
  Ideal.div (Ideal.ofBits .f32 0x3F800000#32) (Ideal.ofBits .f32 0x3F800000#32 + Ideal.exp (-z))

/-- The prediction of batch row `p`. -/
def outAt (x : IVec ⟨2, ![4194304, 3]⟩ 32) (lw : FVec Ideal ⟨2, ![1, 9992]⟩ .f32) (b : FVec Ideal ⟨1, ![1]⟩ .f32)
    (I : Ideal .f32) (p : Fin 4194304) : Ideal .f32 :=
  sigm (((lw (ix2 0 (col (x (ix2 p 0)))) + lw (ix2 0 (col (6040#32 + x (ix2 p 1))))) + b (ix1 0)) + I)

/-- The recommendation flag of batch row `p`: the bit "rating ≥ 3" as a number. -/
def recAt (x : IVec ⟨2, ![4194304, 3]⟩ 32) (p : Fin 4194304) : Ideal .f32 :=
  FloatOps.uitofp (F := Ideal) .f32 (IntOp.cmpi .sge (x (ix2 p 2)) 3#32)

/-! ## Words that are ids of a field -/

/-- A word that passes `0 ≤ w` and `w < k` as a SIGNED number is below `k` as an unsigned one. -/
theorem toNat_lt_of_range (w : BitVec 32) (k : Nat) (hk : k < 2 ^ 31)
    (h0 : IntOp.cmpi .sge w 0#32 = 1#1) (h1 : IntOp.cmpi .slt w (BitVec.ofNat 32 k) = 1#1) : w.toNat < k := by
  rw [IntOp.cmpi_sge] at h0
  rw [IntOp.cmpi_slt, StableHlo.Predicate.toInt_ofNat_small k hk] at h1
  have hz : (0#32 : BitVec 32).toInt = 0 := by decide
  rw [hz] at h0
  have := BitVec.toInt_eq_toNat_cond w
  have hlt := w.isLt
  split at this <;> omega

/-- A small word read signed is the word. -/
theorem toInt_toNat_of_lt (w : BitVec 32) (hw : w.toNat < 2 ^ 31) : w.toInt.toNat = w.toNat := by
  rw [StableHlo.Predicate.toInt_eq_toNat_of_lt hw]; exact Int.toNat_natCast _

/-- The gather's clamp to the weight row does not bind on a word below 9992. -/
theorem clamp_col (w : BitVec 32) (hw : w.toNat < 9992) : min w.toInt.toNat (9992 - 1) = (col w).val := by
  rw [toInt_toNat_of_lt w (by omega)]; rfl

/-- NumPy's rule for a negative index (`w < 0 ? w + n : w`) leaves a small word alone. -/
theorem wrap_id (w n : BitVec 32) (hw : w.toNat < 2 ^ 31) :
    Scalar.select (IntOp.cmpi .slt w 0#32) (IntOp.addi w n) w = w := by
  have h : ¬ IntOp.cmpi .slt w 0#32 = 1#1 := by
    intro hc
    rw [IntOp.cmpi_slt, StableHlo.Predicate.toInt_eq_toNat_of_lt hw] at hc
    have hz : (0#32 : BitVec 32).toInt = 0 := by decide
    rw [hz] at hc; omega
  unfold Scalar.select
  exact if_neg h

/-- A clip to `[0, hi]`, written `min(hi, max(0, w))`, leaves a word of that range alone. -/
theorem clip_id (w hi : BitVec 32) (hhi : hi.toNat < 2 ^ 31) (hw : w.toNat ≤ hi.toNat) :
    IntOp.minsi hi (IntOp.maxsi 0#32 w) = w := by
  have hti : w.toInt = w.toNat := StableHlo.Predicate.toInt_eq_toNat_of_lt (by omega)
  have hth : hi.toInt = hi.toNat := StableHlo.Predicate.toInt_eq_toNat_of_lt hhi
  have h0 : (0#32 : BitVec 32).toInt = 0 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hth, decide_eq_true_eq]; omega

/-- The movie's position: 6040 plus a movie id is below 9992, without wrapping. -/
theorem movie_pos (w : BitVec 32) (hw : w.toNat < 3952) : (6040#32 + w).toNat = 6040 + w.toNat := by
  rw [BitVec.toNat_add]
  have : (6040#32 : BitVec 32).toNat = 6040 := by decide
  rw [this]; omega

/-! ## The two spellings -/

/-- `0 - z` under the exponential is `-z`. -/
theorem sigm_spell (z : Ideal .f32) :
    Ideal.div (Ideal.ofBits .f32 0x3F800000#32) (Ideal.ofBits .f32 0x3F800000#32 + Ideal.exp (Ideal.ofBits .f32 0x00000000#32 - z))
      = sigm z := by
  unfold sigm
  rw [Ideal.ofBits_zero_f32, zero_sub]

/-- A bit widened to a word and read signed is the bit read unsigned. -/
theorem flag_spell (c : BitVec 1) :
    FloatOps.sitofp (F := Ideal) .f32 (c.setWidth 32) = FloatOps.uitofp (F := Ideal) .f32 c := by
  have h : ∀ c : BitVec 1, (c.setWidth 32).toInt = ((c.toNat : ℕ) : ℤ) := by decide
  show (((c.setWidth 32).toInt : ℝ) : EReal) = ((c.toNat : ℝ) : EReal)
  rw [h c, Int.cast_natCast]

end Cert.FmSpec

end
-- ==== Proof.PreRange.lean ====
/-
  The precondition read back: when it holds, every row's first word is a user id (below 6040) and its second a movie id
  (below 3952).

  The precondition is a conjunction of five bits. The last two are, for column 0 and column 1 of the rows, the conjunction
  over ALL rows of "0 ≤ word" and "word < bound" (signed). A conjunction over all rows that is 1 has a 1 at every row; a
  word that passes both signed tests is below the bound as an unsigned number. The column is taken as a [4194304, 1]
  slice of the rows reshaped to a vector, whose entry p is the rows' entry (p, column).
-/
import proofs.«427124_j82205674045607_3_alg».proof.Pre_finite_inputs
import proofs.«427124_j82205674045607_3_alg».proof.Proof.Spec
import Idealize.ShloMosaic.Lib.ReduceAll
import Idealize.ShloMosaic.Lib.Affine
import Idealize.ShloMosaic.Lib.Pipeline.Value

noncomputable section

namespace Cert.FmPre

open Idealize.ShloMosaic Idealize.ShloMosaic.ValueIdx Cert.Pre_finite_inputs

variable [Cert.Pre_finite_inputs.Facts]

/-- The scalar shape has one index. -/
private instance : Subsingleton S_.Idx := ⟨fun _ _ => funext fun d => d.elim0⟩

/-- Entry p of column 0 of the rows, taken as a slice and flattened, is the rows' entry (p, 0). -/
private theorem read_col0 (x : IVec S4194304x3 32) (p : Fin 4194304) :
    shapeCast S4194304 (extractStridedSlice S4194304x1 ![0, 0] x Facts.slices_S4194304x3_S4194304x1_0_0)
      Facts.shapeCasts_S4194304x1_S4194304 (ix1 p) = x (ix2 p 0) := by
  refine (shapeCast_apply _ Facts.shapeCasts_S4194304x1_S4194304 (ix1 p) (ix2 p 0) ?_).trans ?_
  · rw [Shape.rowMajor_val_two, Shape.rowMajor_val_one]
    show p.val * 1 + 0 = p.val
    omega
  · exact extractStridedSlice_apply ![0, 0] x Facts.slices_S4194304x3_S4194304x1_0_0 (ix2 p 0) (ix2 p 0) (fun a => match a with
      | ⟨0, _⟩ => by show p.val = 0 + p.val; omega
      | ⟨1, _⟩ => by show (0 : Nat) = 0 + 0; omega)

/-- Entry p of column 1 of the rows, taken as a slice and flattened, is the rows' entry (p, 1). -/
private theorem read_col1 (x : IVec S4194304x3 32) (p : Fin 4194304) :
    shapeCast S4194304 (extractStridedSlice S4194304x1 ![0, 1] x Facts.slices_S4194304x3_S4194304x1_0_1)
      Facts.shapeCasts_S4194304x1_S4194304 (ix1 p) = x (ix2 p 1) := by
  refine (shapeCast_apply _ Facts.shapeCasts_S4194304x1_S4194304 (ix1 p) (ix2 p 0) ?_).trans ?_
  · rw [Shape.rowMajor_val_two, Shape.rowMajor_val_one]
    show p.val * 1 + 0 = p.val
    omega
  · exact extractStridedSlice_apply ![0, 1] x Facts.slices_S4194304x3_S4194304x1_0_1 (ix2 p 0) (ix2 p 1) (fun a => match a with
      | ⟨0, _⟩ => by show p.val = 0 + p.val; omega
      | ⟨1, _⟩ => by show (1 : Nat) = 1 + 0; omega)

/-- One range test read back: if the conjunction over all rows of "0 ≤ u" and "u < k" (signed, against the two constants
    spread over the rows) is 1, then every entry of u is below k as an unsigned number. -/
private theorem lt_of_all (u : IVec S4194304 32) (k : Nat) (hk : k < 2 ^ 31) (init : IVec S_ 1)
    (e : Host.reduce IntOp.andi
          (andi (cmpi .sge u (broadcastInDim S4194304 ![] Facts.bcast_S_S4194304 (constantI S_ 32 0#32)))
                (cmpi .slt u (broadcastInDim S4194304 ![] Facts.bcast_S_S4194304 (constantI S_ 32 (BitVec.ofNat 32 k)))))
          init Facts.reducesTo_S4194304_S_d0 Facts.h_S_ ix0 = 1#1)
    (p : Fin 4194304) : (u (ix1 p)).toNat < k := by
  have hp := Host.reduce_andi_all _ _ _ _ ix0 e (ix1 p)
  obtain ⟨h0, h1⟩ := IntOp.andi_eq_one.1 hp
  exact Cert.FmSpec.toNat_lt_of_range _ k hk h0 h1

theorem ids_in_range (x : IVec S4194304x3 32) (e : FVec Ideal S9992x16 .f32) (w : FVec Ideal S1x9992 .f32) (b : FVec Ideal S1 .f32)
    (h : Cert.Pre_finite_inputs.fn (F := Ideal) x e w b = fun _ => 1#1) (p : Fin 4194304) :
    (x (ix2 p 0)).toNat < 6040 ∧ (x (ix2 p 1)).toNat < 3952 := by
  -- the one bit of the precondition, as the printed conjunction
  have e1 := congrFun h ix0
  dsimp only [fn, fn_part1] at e1
  -- (finiteness ∧ user range) ∧ movie range
  obtain ⟨e24, e30⟩ := IntOp.andi_eq_one.1 e1
  obtain ⟨-, e23⟩ := IntOp.andi_eq_one.1 e24
  have hu := lt_of_all _ 6040 (by omega) _ e23 p
  have hm := lt_of_all _ 3952 (by omega) _ e30 p
  rw [read_col0] at hu
  rw [read_col1] at hm
  exact ⟨hu, hm⟩

end Cert.FmPre

end
-- ==== Proof.KerNames.lean ====
/-
  Names for the arrays the kernel program's one region finds and for the argument arrays, each at its literal type,
  and the batch row that position (a, b) of the [32768, 128] layout holds: row a * 128 + b.
-/
import proofs.«427124_j82205674045607_3_alg».proof.Proof.Gen.KernelIdeal.Frame
import proofs.«427124_j82205674045607_3_alg».proof.Proof.Spec

noncomputable section

namespace Cert.FmKer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The id-and-rating rows, [4194304, 3]. -/
abbrev xArr (c : Dev nD) : IVec S4194304x3 32 := m ((c : Thread nD τ).loc main_arg0)
/-- The embedding table, [9992, 16]. -/
abbrev eArr (c : Dev nD) : FVec Ideal S9992x16 .f32 := m ((c : Thread nD τ).loc main_arg1)
/-- The weight row, [1, 9992]. -/
abbrev wArr (c : Dev nD) : FVec Ideal S1x9992 .f32 := m ((c : Thread nD τ).loc main_arg2)
/-- The bias, [1]. -/
abbrev bArr (c : Dev nD) : FVec Ideal S1 .f32 := m ((c : Thread nD τ).loc main_arg3)

/-- The summed weights laid out [32768, 128], as the region finds them. -/
abbrev wsumArr (c : Dev nD) : FVec Ideal S32768x128 .f32 := V m c main_v49
/-- The ratings laid out [32768, 128], as the region finds them. -/
abbrev ratArr (c : Dev nD) : IVec S32768x128 32 := V m c main_v50
/-- The total bias, [1, 1], as the region finds it. -/
abbrev biasArr (c : Dev nD) : FVec Ideal S1x1 .f32 := V m c main_v28

/-- The batch row at position (a, b) of the [32768, 128] layout. -/
def row (a : Fin 32768) (b : Fin 128) : Fin 4194304 := ⟨a.val * 128 + b.val, by omega⟩

end Cert.FmKer

end
-- ==== Proof.KerHost.lean ====
/-
  The arrays the kernel program's region finds, read at an index: each is what the host lines before the region computed
  from the argument arrays.
-/
import proofs.«427124_j82205674045607_3_alg».proof.Proof.KerNames
import Idealize.ShloMosaic.Lib.StableHlo.Run
import Idealize.ShloMosaic.Lib.StableHlo.Predicate
import Idealize.ShloMosaic.Lib.Pipeline.Value

noncomputable section

namespace Cert.FmKer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The pairwise-interaction scalar as the host lines before the region compute it from the embedding table. -/
def interVec (e : FVec Ideal S9992x16 .f32) : FVec Ideal S_ .f32 :=
  mulf (constant (F := Ideal) S_ .f32 0x3F000000#32)
    (Host.reduceAdd (F := Ideal)
      (subf
        (mulf
          (addf
            (mulf (broadcastInDim S16 ![] bcast_S_S16 (constant (F := Ideal) S_ .f32 0x461C1800#32))
              (shapeCast S16 (extractStridedSlice S1x16 ![0, 0] e slices_S9992x16_S1x16_0_0) shapeCasts_S1x16_S16))
            (mulf (broadcastInDim S16 ![] bcast_S_S16 (constant (F := Ideal) S_ .f32 0x40000000#32))
              (shapeCast S16 (extractStridedSlice S1x16 ![1, 0] e slices_S9992x16_S1x16_1_0) shapeCasts_S1x16_S16)))
          (addf
            (mulf (broadcastInDim S16 ![] bcast_S_S16 (constant (F := Ideal) S_ .f32 0x461C1800#32))
              (shapeCast S16 (extractStridedSlice S1x16 ![0, 0] e slices_S9992x16_S1x16_0_0) shapeCasts_S1x16_S16))
            (mulf (broadcastInDim S16 ![] bcast_S_S16 (constant (F := Ideal) S_ .f32 0x40000000#32))
              (shapeCast S16 (extractStridedSlice S1x16 ![1, 0] e slices_S9992x16_S1x16_1_0) shapeCasts_S1x16_S16))))
        (addf
          (mulf (broadcastInDim S16 ![] bcast_S_S16 (constant (F := Ideal) S_ .f32 0x461C1800#32))
            (mulf
              (shapeCast S16 (extractStridedSlice S1x16 ![0, 0] e slices_S9992x16_S1x16_0_0) shapeCasts_S1x16_S16)
              (shapeCast S16 (extractStridedSlice S1x16 ![0, 0] e slices_S9992x16_S1x16_0_0) shapeCasts_S1x16_S16)))
          (mulf (broadcastInDim S16 ![] bcast_S_S16 (constant (F := Ideal) S_ .f32 0x40000000#32))
            (mulf
              (shapeCast S16 (extractStridedSlice S1x16 ![1, 0] e slices_S9992x16_S1x16_1_0) shapeCasts_S1x16_S16)
              (shapeCast S16 (extractStridedSlice S1x16 ![1, 0] e slices_S9992x16_S1x16_1_0) shapeCasts_S1x16_S16)))))
      (constant (F := Ideal) S_ .f32 0x00000000#32) reducesTo_S16_S_d0 h_S_)

/-! ## The host lines before the region, as functions of the argument arrays -/

/-- One column of the id-and-rating rows, as a vector over the batch. -/
def idCol (x : IVec S4194304x3 32) (off : Fin 2 → Nat) (h : S4194304x3.Slices off S4194304x1) : IVec S4194304 32 :=
  shapeCast S4194304 (extractStridedSlice S4194304x1 off x h) shapeCasts_S4194304x1_S4194304

/-- One word at every batch position. -/
def splat (w : BitVec 32) : IVec S4194304 32 := broadcastInDim S4194304 ![] bcast_S_S4194304 (constantI S_ 32 w)

/-- The clip of every id to `[0, hi]`: min(hi, max(0, v)). -/
def clipVec (hi : BitVec 32) (v : IVec S4194304 32) : IVec S4194304 32 := minsi (splat hi) (maxsi (splat 0#32) v)

/-- The negative-index rule at every position: v < 0 ? v + 9992 : v. -/
def wrapVec (v : IVec S4194304 32) : IVec S4194304 32 := select (cmpi .slt v (splat 0#32)) (addi v (splat 9992#32)) v

/-- The weight row read at every position of an index vector. -/
def takeVec (w : FVec Ideal S1x9992 .f32) (v : IVec S4194304 32) : FVec Ideal S4194304 .f32 :=
  Host.gather gather_S9992_S4194304x1_S4194304_n_0_n_n_0_1_1 (shapeCast S9992 w shapeCasts_S1x9992_S9992)
    (broadcastInDim S4194304x1 ![0] bcast_S4194304_S4194304x1_0 v)

/-- The summed weights over the batch: the user's weight plus the movie's weight. -/
def wsumFlat (x : IVec S4194304x3 32) (w : FVec Ideal S1x9992 .f32) : FVec Ideal S4194304 .f32 :=
  addf (takeVec w (wrapVec (clipVec 6039#32 (idCol x ![0, 0] slices_S4194304x3_S4194304x1_0_0))))
    (takeVec w (wrapVec (addi (splat 6040#32) (clipVec 3951#32 (idCol x ![0, 1] slices_S4194304x3_S4194304x1_0_1)))))

set_option maxHeartbeats 1600000 in
/-- The summed weights the region finds are the host lines' term of the argument arrays. -/
theorem wsum_eq (c : Dev nD) :
    (V m c main_v49 : S32768x128.Idx → EReal)
      = shapeCast S32768x128 (wsumFlat (xArr m c) (wArr m c)) shapeCasts_S4194304_S32768x128 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 1600000 in
/-- The ratings the region finds are the third column, laid out [32768, 128]. -/
theorem rat_eq (c : Dev nD) :
    (V m c main_v50 : S32768x128.Idx → BitVec 32)
      = shapeCast S32768x128 (idCol (xArr m c) ![0, 2] slices_S4194304x3_S4194304x1_0_2) shapeCasts_S4194304_S32768x128 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 1600000 in
/-- The total bias the region finds is the bias plus the interaction scalar, as a [1, 1] array. -/
theorem bias_eq (c : Dev nD) :
    (V m c main_v28 : S1x1.Idx → EReal)
      = shapeCast S1x1 (addf (shapeCast S_ (bArr m c) shapeCasts_S1_S_) (interVec (eArr m c))) shapeCasts_S_S1x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

/-! ## The same lines read at one batch position -/

/-- Column `q` of the rows at batch position `p`. -/
theorem idCol_apply (x : IVec S4194304x3 32) (off : Fin 2 → Nat) (h : S4194304x3.Slices off S4194304x1) (q : Fin 3)
    (h0 : off 0 = 0) (h1 : off 1 = q.val) (p : Fin 4194304) : idCol x off h (ix1 p) = x (ix2 p q) := by
  unfold idCol
  refine (shapeCast_apply _ shapeCasts_S4194304x1_S4194304 (ix1 p) (ix2 p (0 : Fin 1)) ?_).trans ?_
  · rw [Shape.rowMajor_val_two, Shape.rowMajor_val_one]
    show p.val * 1 + 0 = p.val
    omega
  · exact extractStridedSlice_apply off x h (ix2 p (0 : Fin 1)) (ix2 p q) (fun a => match a with
      | ⟨0, _⟩ => by show p.val = off 0 + p.val; omega
      | ⟨1, _⟩ => by show q.val = off 1 + 0; omega)

/-- The clip at one position. -/
theorem clipVec_apply (hi : BitVec 32) (v : IVec S4194304 32) (i : S4194304.Idx) :
    clipVec hi v i = IntOp.minsi hi (IntOp.maxsi 0#32 (v i)) := rfl

/-- The negative-index rule at one position. -/
theorem wrapVec_apply (v : IVec S4194304 32) (i : S4194304.Idx) :
    wrapVec v i = Scalar.select (IntOp.cmpi .slt (v i) 0#32) (IntOp.addi (v i) 9992#32) (v i) := rfl

/-- The weight row read at position `p` of an index vector: the entry at the index read signed and cut to the row. -/
theorem takeVec_apply (w : FVec Ideal S1x9992 .f32) (v : IVec S4194304 32) (p : Fin 4194304) (k : Fin 9992)
    (hk : min (v (ix1 p)).toInt.toNat (9992 - 1) = k.val) : takeVec w v (ix1 p) = w (ix2 (0 : Fin 1) k) := by
  unfold takeVec
  have hb : broadcastInDim S4194304x1 ![0] bcast_S4194304_S4194304x1_0 v (StableHlo.Predicate.ixP p) = v (ix1 p) :=
    broadcastInDim_apply _ bcast_S4194304_S4194304x1_0 v _ (ix1 p) (fun a => match a with
      | ⟨0, _⟩ => by show p.val = if (4194304 : Nat) = 1 then 0 else p.val; rw [if_neg (by decide)])
  have hp : (ix1 p : S4194304.Idx) = Shape.Idx.ofFin p := Shape.Idx.eq_ofFin _
  rw [hp]
  refine (StableHlo.Predicate.gather_take gather_S9992_S4194304x1_S4194304_n_0_n_n_0_1_1 rfl rfl rfl rfl _ _ p
    (by decide)).trans ?_
  refine shapeCast_apply w shapeCasts_S1x9992_S9992 _ (ix2 (0 : Fin 1) k) ?_
  rw [Shape.rowMajor_val_two, Shape.rowMajor_val_one]
  show 0 * 9992 + k.val
    = min (broadcastInDim S4194304x1 ![0] bcast_S4194304_S4194304x1_0 v (StableHlo.Predicate.ixP p)).toInt.toNat (9992 - 1)
  rw [hb]
  omega

/-- A user id of its field passes the clip, the negative-index rule and the cut to the row unchanged. -/
theorem user_pos (u : BitVec 32) (hu : u.toNat < 6040) :
    min (Scalar.select (IntOp.cmpi .slt (IntOp.minsi 6039#32 (IntOp.maxsi 0#32 u)) 0#32)
        (IntOp.addi (IntOp.minsi 6039#32 (IntOp.maxsi 0#32 u)) 9992#32) (IntOp.minsi 6039#32 (IntOp.maxsi 0#32 u))).toInt.toNat
      (9992 - 1) = (Cert.FmSpec.col u).val := by
  have h6039 : (6039#32 : BitVec 32).toNat = 6039 := by decide
  rw [Cert.FmSpec.clip_id u 6039#32 (by rw [h6039]; omega) (by rw [h6039]; omega),
    Cert.FmSpec.wrap_id u 9992#32 (by omega)]
  exact Cert.FmSpec.clamp_col u (by omega)

/-- A movie id of its field, moved past the user weights, passes all three unchanged as well. -/
theorem movie_pos' (w : BitVec 32) (hw : w.toNat < 3952) :
    min (Scalar.select (IntOp.cmpi .slt (IntOp.addi 6040#32 (IntOp.minsi 3951#32 (IntOp.maxsi 0#32 w))) 0#32)
        (IntOp.addi (IntOp.addi 6040#32 (IntOp.minsi 3951#32 (IntOp.maxsi 0#32 w))) 9992#32)
        (IntOp.addi 6040#32 (IntOp.minsi 3951#32 (IntOp.maxsi 0#32 w)))).toInt.toNat
      (9992 - 1) = (Cert.FmSpec.col (6040#32 + w)).val := by
  have h3951 : (3951#32 : BitVec 32).toNat = 3951 := by decide
  have hpos := Cert.FmSpec.movie_pos w hw
  rw [Cert.FmSpec.clip_id w 3951#32 (by rw [h3951]; omega) (by rw [h3951]; omega)]
  show min (Scalar.select (IntOp.cmpi .slt (6040#32 + w) 0#32) (IntOp.addi (6040#32 + w) 9992#32) (6040#32 + w)).toInt.toNat
      (9992 - 1) = _
  rw [Cert.FmSpec.wrap_id (6040#32 + w) 9992#32 (by omega)]
  exact Cert.FmSpec.clamp_col (6040#32 + w) (by omega)

/-- The summed weights at batch position `p`, for ids of their fields. -/
theorem wsumFlat_apply (x : IVec S4194304x3 32) (w : FVec Ideal S1x9992 .f32) (p : Fin 4194304)
    (hu : (x (ix2 p 0)).toNat < 6040) (hm : (x (ix2 p 1)).toNat < 3952) :
    wsumFlat x w (ix1 p)
      = w (ix2 0 (Cert.FmSpec.col (x (ix2 p 0)))) + w (ix2 0 (Cert.FmSpec.col (6040#32 + x (ix2 p 1)))) := by
  unfold wsumFlat
  show takeVec w _ (ix1 p) + takeVec w _ (ix1 p) = _
  rw [takeVec_apply w _ p (Cert.FmSpec.col (x (ix2 p 0))) (by
        rw [wrapVec_apply, clipVec_apply, idCol_apply x _ _ 0 rfl rfl p]
        exact user_pos _ hu),
    takeVec_apply w _ p (Cert.FmSpec.col (6040#32 + x (ix2 p 1))) (by
        rw [wrapVec_apply]
        show min (Scalar.select (IntOp.cmpi .slt (IntOp.addi 6040#32 (clipVec 3951#32 _ (ix1 p))) 0#32)
          (IntOp.addi (IntOp.addi 6040#32 (clipVec 3951#32 _ (ix1 p))) 9992#32)
          (IntOp.addi 6040#32 (clipVec 3951#32 _ (ix1 p)))).toInt.toNat (9992 - 1) = _
        rw [clipVec_apply, idCol_apply x _ _ 1 rfl rfl p]
        exact movie_pos' _ hm)]

/-! ## The three arrays at an index -/

/-- Position (a, b) of the summed weights holds the user's weight plus the movie's weight of row a * 128 + b. -/
theorem wsum_apply (c : Dev nD) (a : Fin 32768) (b : Fin 128)
    (hu : (xArr m c (ix2 (row a b) 0)).toNat < 6040) (hm : (xArr m c (ix2 (row a b) 1)).toNat < 3952) :
    wsumArr m c (ix2 a b)
      = wArr m c (ix2 0 (Cert.FmSpec.col (xArr m c (ix2 (row a b) 0))))
        + wArr m c (ix2 0 (Cert.FmSpec.col (6040#32 + xArr m c (ix2 (row a b) 1)))) := by
  refine (congrFun (wsum_eq m c) (ix2 a b)).trans ?_
  refine (shapeCast_apply _ shapeCasts_S4194304_S32768x128 (ix2 a b) (ix1 (row a b)) ?_).trans ?_
  · rw [Shape.rowMajor_val_two, Shape.rowMajor_val_one]
    rfl
  · exact wsumFlat_apply (xArr m c) (wArr m c) (row a b) hu hm

/-- Position (a, b) of the ratings holds the rating of row a * 128 + b. -/
theorem rat_apply (c : Dev nD) (a : Fin 32768) (b : Fin 128) :
    ratArr m c (ix2 a b) = xArr m c (ix2 (row a b) 2) := by
  refine (congrFun (rat_eq m c) (ix2 a b)).trans ?_
  refine (shapeCast_apply _ shapeCasts_S4194304_S32768x128 (ix2 a b) (ix1 (row a b)) ?_).trans ?_
  · rw [Shape.rowMajor_val_two, Shape.rowMajor_val_one]
    rfl
  · exact idCol_apply (xArr m c) _ _ 2 rfl rfl (row a b)

/-- The total bias is the bias plus the interaction scalar. -/
theorem bias_apply (c : Dev nD) :
    biasArr m c (ix2 0 0) = bArr m c (ix1 0) + interVec (eArr m c) ix0 := by
  have hz : (S_.rowMajor ix0).val = 0 := Shape.rowMajorPi_zero _ _
  refine (congrFun (bias_eq m c) (ix2 0 0)).trans ?_
  refine (shapeCast_apply _ shapeCasts_S_S1x1 (ix2 0 0) ix0 ?_).trans ?_
  · rw [Shape.rowMajor_val_two, hz]
    rfl
  · show shapeCast S_ (bArr m c) shapeCasts_S1_S_ ix0 + interVec (eArr m c) ix0 = _
    rw [shapeCast_apply (bArr m c) shapeCasts_S1_S_ ix0 (ix1 0) (by rw [Shape.rowMajor_val_one, hz]; rfl)]

end Cert.FmKer

end
-- ==== Proof.KerBlocks.lean ====
/-
  The two arrays the kernel's region writes, each as one whole-array function of the arrays it reads: the eight grid points
  write eight blocks of 4096 rows that tile the [32768, 128] outputs.
-/
import proofs.«427124_j82205674045607_3_alg».proof.Proof.KerNames
import Idealize.ShloMosaic.Lib.Pipeline.Value
import Idealize.ShloMosaic.Lib.ValueLayout

noncomputable section

namespace Cert.FmKer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The prediction array: the logistic function of summed weights plus total bias, position by position. -/
def predOf (ws : FVec Ideal S32768x128 .f32) (bias : FVec Ideal S1x1 .f32) : FVec Ideal S32768x128 .f32 :=
  fun j => Cert.FmSpec.sigm (ws j + bias (ix2 0 0))

/-- The flag array: the bit "rating ≥ 3" as a number, position by position. -/
def flagOf (r : IVec S32768x128 32) : FVec Ideal S32768x128 .f32 :=
  fun j => FloatOps.uitofp (F := Ideal) .f32 (IntOp.cmpi .sge (r j) 3#32)

namespace Blocks

/-! ## What one grid point computes, position by position -/

/-- A [1,1] vector spread over a block reads its one entry at every position. -/
theorem bias_everywhere (v2 : FVec Ideal S1x1 .f32) (h : S1x1.Broadcasts S4096x128) (j : S4096x128.Idx) :
    broadcastTo S4096x128 v2 h j = v2 (ix2 0 0) :=
  broadcastTo_apply v2 h j (ix2 0 0) (fun a => by
    match a with
    | ⟨0, _⟩ => rfl
    | ⟨1, _⟩ => rfl)

/-- The first stored value at a position: 1 / (1 + e^(0 - (w + b))) is the logistic function of w + b, with w the block's
    entry there and b the one entry of the bias. -/
theorem pred_at (v0 : Vec Ideal S4096x128 .f32) (v2 : Vec Ideal S1x1 .f32) (j : S4096x128.Idx) :
    k0_pay1 (F := Ideal) v0 v2 j = Cert.FmSpec.sigm (v0 j + v2 (ix2 0 0)) := by
  unfold k0_pay1
  rw [shapeCast_self, shapeCast_self, shapeCast_self]
  refine Eq.trans ?_ (Cert.FmSpec.sigm_spell (v0 j + v2 (ix2 0 0)))
  refine Eq.trans ?_ (congrArg (fun z => Ideal.div (Ideal.ofBits .f32 0x3F800000#32)
    (Ideal.ofBits .f32 0x3F800000#32 + Ideal.exp (Ideal.ofBits .f32 0x00000000#32 - (v0 j + z))))
    (bias_everywhere v2 broadcasts_S1x1_S4096x128 j))
  rfl

/-- The second stored value at a position: the bit "rating ≥ 3", widened to a word and read signed, is the bit as a number. -/
theorem flag_at (v15 : Vec Ideal S4096x128 .i32) (j : S4096x128.Idx) :
    k0_pay2 (F := Ideal) v15 j = FloatOps.uitofp (F := Ideal) .f32 (IntOp.cmpi .sge (v15 j) 3#32) := by
  unfold k0_pay2
  rw [shapeCast_self]
  exact Cert.FmSpec.flag_spell (IntOp.cmpi .sge (v15 j) 3#32)

/-! ## Where each block sits in its array -/

theorem zero_offsets : (![0, 0] : Fin 2 → Nat) = fun _ => 0 := funext fun a => by fin_cases a <;> rfl

/-- The block indices at grid point t: (t, 0) for the two inputs and the two outputs of 4096 rows, (0, 0) for the bias. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Point t's block of the summed weights is rows 4096 t … 4096 t + 4095 of the array. -/
theorem wsum_block (c : Dev nD) (t : Fin cfg0.N) (y : S4096x128.Idx) (k : S32768x128.Idx)
    (hk0 : (k 0).val = t.val * 4096 + (y 0).val) (hk1 : (k 1).val = (y 1).val) :
    (iblk m c 0 t : Vec Ideal S4096x128 .f32) y = wsumArr m c k := by
  obtain ⟨e00, e01, -⟩ := block_index t
  unfold iblk
  rw [View.read_apply]
  show V m c main_v49 _ = V m c main_v49 k
  refine congrArg (V m c main_v49) ?_
  funext a
  apply Fin.ext
  match a with
  | ⟨0, _⟩ => show win0_0.index t 0 * 4096 + 1 * (y 0).val = (k 0).val; omega
  | ⟨1, _⟩ => show win0_0.index t 1 * 128 + 1 * (y 1).val = (k 1).val; omega

/-- Point t's block of the ratings is rows 4096 t … 4096 t + 4095 of the array. -/
theorem rat_block (c : Dev nD) (t : Fin cfg0.N) (y : S4096x128.Idx) (k : S32768x128.Idx)
    (hk0 : (k 0).val = t.val * 4096 + (y 0).val) (hk1 : (k 1).val = (y 1).val) :
    (iblk m c 1 t : Vec Ideal S4096x128 .i32) y = ratArr m c k := by
  obtain ⟨-, -, e10, e11, -⟩ := block_index t
  unfold iblk
  rw [View.read_apply]
  show V m c main_v50 _ = V m c main_v50 k
  refine congrArg (V m c main_v50) ?_
  funext a
  apply Fin.ext
  match a with
  | ⟨0, _⟩ => show win0_1.index t 0 * 4096 + 1 * (y 0).val = (k 0).val; omega
  | ⟨1, _⟩ => show win0_1.index t 1 * 128 + 1 * (y 1).val = (k 1).val; omega

/-- The bias's block is the whole [1,1] array at every point. -/
theorem bias_block (c : Dev nD) (t : Fin cfg0.N) (y : S1x1.Idx) :
    (iblk m c 2 t : Vec Ideal S1x1 .f32) y = biasArr m c y := by
  obtain ⟨-, -, -, -, e20, e21, -⟩ := block_index t
  unfold iblk
  rw [View.read_apply]
  show V m c main_v28 _ = V m c main_v28 y
  refine congrArg (V m c main_v28) ?_
  funext a
  apply Fin.ext
  match a with
  | ⟨0, _⟩ => show win0_2.index t 0 * 1 + 1 * (y 0).val = (y 0).val; omega
  | ⟨1, _⟩ => show win0_2.index t 1 * 1 + 1 * (y 1).val = (y 1).val; omega

/-! ## What each point writes back is its block of the whole-array function -/

/-- Point t writes rows 4096 t … 4096 t + 4095 of the prediction array. -/
theorem written_pred (c : Dev nD) (t : Fin cfg0.N) :
    (dats m 0 c).flushed 3 t = ((cfg0.win 3).blk t).view.read (Elt Ideal) (predOf (wsumArr m c) (biasArr m c)) := by
  show (cfg0.win 3).cut (grid0.coords t) ((dats m 0 c).after 3 t) = _
  rw [after0_3]
  unfold out0_3
  rw [View.canon_unit_zero zero_offsets]
  simp only [View.ld_unit_zero (S := S4096x128) zero_offsets, View.ld_unit_zero (S := S1x1) zero_offsets]
  funext j
  refine (pred_at (iblk m c 0 t) (iblk m c 2 t) j).trans ?_
  obtain ⟨-, -, -, -, -, -, e30, e31, -, -⟩ := block_index t
  refine Eq.trans (congrArg₂ (fun a b => Cert.FmSpec.sigm (a + b))
    (wsum_block m c t j (((cfg0.win 3).blk t).view.emb j) ?_ ?_) (bias_block m c t (ix2 0 0))) ?_
  · show win0_3.index t 0 * 4096 + 1 * (j 0).val = t.val * 4096 + (j 0).val; omega
  · show win0_3.index t 1 * 128 + 1 * (j 1).val = (j 1).val; omega
  · rfl

/-- Point t writes rows 4096 t … 4096 t + 4095 of the flag array. -/
theorem written_flag (c : Dev nD) (t : Fin cfg0.N) :
    (dats m 0 c).flushed 4 t = ((cfg0.win 4).blk t).view.read (Elt Ideal) (flagOf (ratArr m c)) := by
  show (cfg0.win 4).cut (grid0.coords t) ((dats m 0 c).after 4 t) = _
  rw [after0_4]
  unfold out0_4
  rw [View.canon_unit_zero zero_offsets]
  simp only [View.ld_unit_zero (S := S4096x128) zero_offsets]
  funext j
  refine (flag_at (iblk m c 1 t) j).trans ?_
  obtain ⟨-, -, -, -, -, -, -, -, e40, e41⟩ := block_index t
  refine Eq.trans (congrArg (fun a => FloatOps.uitofp (F := Ideal) .f32 (IntOp.cmpi .sge a 3#32))
    (rat_block m c t j (((cfg0.win 4).blk t).view.emb j) ?_ ?_)) ?_
  · show win0_4.index t 0 * 4096 + 1 * (j 0).val = t.val * 4096 + (j 0).val; omega
  · show win0_4.index t 1 * 128 + 1 * (j 1).val = (j 1).val; omega
  · rfl

/-! ## The eight blocks tile each output -/

/-- A position is in point t's block of the first output iff each coordinate is in the block's range. -/
theorem mem_block_pred (t : Fin cfg0.N) (i : S32768x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v51_0).slice (win0_3.rect t)).set ↔ _
  rw [View.set_slice_whole, Rect.mem_set_unit]
  exact Iff.rfl

/-- A position is in point t's block of the second output iff each coordinate is in the block's range. -/
theorem mem_block_flag (t : Fin cfg0.N) (i : S32768x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v51_1).slice (win0_4.rect t)).set ↔ _
  rw [View.set_slice_whole, Rect.mem_set_unit]
  exact Iff.rfl

/-- The grid point whose blocks hold row r is r / 4096. -/
theorem point_of_row (i : S32768x128.Idx) : ∃ t : Fin cfg0.N, t.val = (i 0).val / 4096 := by
  have hi0 : (i 0).val < 32768 := (i 0).isLt
  have hN : grid0.N = 8 := N_0
  exact ⟨⟨(i 0).val / 4096, by show _ < grid0.N; rw [hN]; omega⟩, rfl⟩

/-- Every position of the first output is in some point's block. -/
theorem cover_pred (i : S32768x128.Idx) :
    ∃ t : Fin cfg0.N, (cfg0.win 3).flush t = true ∧ i ∈ ((cfg0.win 3).blk t).view.set := by
  have hi1 : (i 1).val < 128 := (i 1).isLt
  obtain ⟨t, ht⟩ := point_of_row i
  obtain ⟨-, -, -, -, -, -, e30, e31, -, -⟩ := block_index t
  refine ⟨t, flush0_3 t, ?_⟩
  rw [mem_block_pred]
  intro a
  match a with
  | ⟨0, _⟩ => show win0_3.index t 0 * 4096 ≤ (i 0).val ∧ (i 0).val < win0_3.index t 0 * 4096 + 4096; omega
  | ⟨1, _⟩ => show win0_3.index t 1 * 128 ≤ (i 1).val ∧ (i 1).val < win0_3.index t 1 * 128 + 128; omega

/-- Every position of the second output is in some point's block. -/
theorem cover_flag (i : S32768x128.Idx) :
    ∃ t : Fin cfg0.N, (cfg0.win 4).flush t = true ∧ i ∈ ((cfg0.win 4).blk t).view.set := by
  have hi1 : (i 1).val < 128 := (i 1).isLt
  obtain ⟨t, ht⟩ := point_of_row i
  obtain ⟨-, -, -, -, -, -, -, -, e40, e41⟩ := block_index t
  refine ⟨t, flush0_4 t, ?_⟩
  rw [mem_block_flag]
  intro a
  match a with
  | ⟨0, _⟩ => show win0_4.index t 0 * 4096 ≤ (i 0).val ∧ (i 0).val < win0_4.index t 0 * 4096 + 4096; omega
  | ⟨1, _⟩ => show win0_4.index t 1 * 128 ≤ (i 1).val ∧ (i 1).val < win0_4.index t 1 * 128 + 128; omega

end Blocks

/-! ## The two arrays after the region -/

/-- After the region, the first output array is the prediction array. -/
theorem final_pred (c : Dev nD) : (dats m 0 c).arrAt 3 cfg0.N = predOf (wsumArr m c) (biasArr m c) :=
  (dats m 0 c).arrAt_eq_of_cover 3 (predOf (wsumArr m c) (biasArr m c)) (fun t _ => Blocks.written_pred m c t) Blocks.cover_pred

/-- After the region, the second output array is the flag array. -/
theorem final_flag (c : Dev nD) : (dats m 0 c).arrAt 4 cfg0.N = flagOf (ratArr m c) :=
  (dats m 0 c).arrAt_eq_of_cover 4 (flagOf (ratArr m c)) (fun t _ => Blocks.written_flag m c t) Blocks.cover_flag

end Cert.FmKer

end
-- ==== Proof.KerTail.lean ====
/-
  The kernel program's run with its two results named, and each result read at a batch row.

  After the region the program only reshapes each [32768, 128] output array to [4194304, 1]: entry (p, 0) of a result is
  entry (p / 128, p % 128) of the array the region left.
-/
import proofs.«427124_j82205674045607_3_alg».proof.Proof.KerNames
import Idealize.ShloMosaic.Lib.StableHlo.Run
import Idealize.ShloMosaic.Lib.Pipeline.Value

noncomputable section

namespace Cert.FmKer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The layout position of batch row `p`: (p / 128, p % 128). -/
def pos (p : Fin 4194304) : S32768x128.Idx := ix2 ⟨p.val / 128, by omega⟩ ⟨p.val % 128, Nat.mod_lt _ (by decide)⟩

/-- The row at the layout position of `p` is `p`. -/
theorem row_pos (p : Fin 4194304) : row ⟨p.val / 128, by omega⟩ ⟨p.val % 128, Nat.mod_lt _ (by decide)⟩ = p := by
  apply Fin.ext
  show p.val / 128 * 128 + p.val % 128 = p.val
  omega

/-- The prediction result, [4194304, 1]: what the lines after the region leave in it. -/
def outArr (c : Dev nD) : FVec Ideal S4194304x1 .f32 := Pipeline.afterTail₀ cfgs (dats m) 0 (V0 m) [hostOps1] c main_v52

/-- The flag result, [4194304, 1]. -/
def recArr (c : Dev nD) : FVec Ideal S4194304x1 .f32 := Pipeline.afterTail₀ cfgs (dats m) 0 (V0 m) [hostOps1] c main_v53

/-- The prediction result is the region's first output array, reshaped. -/
theorem outArr_eq (c : Dev nD) :
    outArr m c = shapeCast S4194304x1 ((dats m 0 c).arrAt 3 cfg0.N : S32768x128.Idx → Ideal .f32) shapeCasts_S32768x128_S4194304x1 := by
  unfold outArr Pipeline.afterTail₀
  show StableHlo.after hostOps1 _ (Proc.devRef .tc main_v52) = _
  after_results
  have e := Pipeline.withArrays_arr spec0 launch0.win.arr_inj c (V0 m c) (fun w => (dats m 0 c).arrAt w (cfgs 0).N) 3
  exact congrArg (fun A : S32768x128.Idx → Ideal .f32 => shapeCast S4194304x1 A shapeCasts_S32768x128_S4194304x1) e

/-- The flag result is the region's second output array, reshaped. -/
theorem recArr_eq (c : Dev nD) :
    recArr m c = shapeCast S4194304x1 ((dats m 0 c).arrAt 4 cfg0.N : S32768x128.Idx → Ideal .f32) shapeCasts_S32768x128_S4194304x1 := by
  unfold recArr Pipeline.afterTail₀
  show StableHlo.after hostOps1 _ (Proc.devRef .tc main_v53) = _
  after_results
  have e := Pipeline.withArrays_arr spec0 launch0.win.arr_inj c (V0 m c) (fun w => (dats m 0 c).arrAt w (cfgs 0).N) 4
  exact congrArg (fun A : S32768x128.Idx → Ideal .f32 => shapeCast S4194304x1 A shapeCasts_S32768x128_S4194304x1) e

/-- A [32768, 128] array reshaped to [4194304, 1], read at row `p`. -/
theorem reshape_apply (A : S32768x128.Idx → Ideal .f32) (p : Fin 4194304) :
    shapeCast S4194304x1 A shapeCasts_S32768x128_S4194304x1 (ix2 p 0) = A (pos p) :=
  shapeCast_apply _ shapeCasts_S32768x128_S4194304x1 (ix2 p 0) (pos p)
    (by unfold pos; rewrite [Shape.rowMajor_val_two, Shape.rowMajor_val_two]; show p.val / 128 * 128 + p.val % 128 = p.val * 1 + 0; omega)

theorem outArr_apply (c : Dev nD) (p : Fin 4194304) :
    outArr m c (ix2 p 0) = ((dats m 0 c).arrAt 3 cfg0.N : S32768x128.Idx → Ideal .f32) (pos p) := by
  rw [outArr_eq]; exact reshape_apply _ p

theorem recArr_apply (c : Dev nD) (p : Fin 4194304) :
    recArr m c (ix2 p 0) = ((dats m 0 c).arrAt 4 cfg0.N : S32768x128.Idx → Ideal .f32) (pos p) := by
  rw [recArr_eq]; exact reshape_apply _ p

/-- Every weakly fair execution of the kernel program ends with its two results at `outArr` and `recArr` and its four
    argument arrays as they were. -/
theorem ker_run (ρ : Dev nD → PrngReg) :
    θ_run defs (onTc (τ := τ) (main (F := Ideal))) ⟨m, fun _ => 0, ρ⟩ (fun r => ∀ c : Dev nD,
      r.2.mem ((c.tc : Thread nD τ).loc main_v52) = outArr m c
      ∧ r.2.mem ((c.tc : Thread nD τ).loc main_v53) = recArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v52 (Pipeline.mem_restRefs_of main_v52 (by decide) (by decide)),
     (h c).2 main_v53 (Pipeline.mem_restRefs_of main_v53 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.FmKer

end
-- ==== Proof.Inter.lean ====
/-
  The pairwise-interaction scalar is computed by the same host lines in both programs: the kernel program's term and the
  reference's are one function of the embedding table.
-/
import proofs.«427124_j82205674045607_3_alg».proof.Proof.KerHost
import proofs.«427124_j82205674045607_3_alg».proof.Proof.Gen.ReferenceIdeal.Read

noncomputable section

namespace Cert.FmInter

open Idealize.ShloMosaic

/-- Both terms are the same slices, products, sum over the sixteen factors and halving, with the same constants: they agree
    by unfolding. -/
theorem interVec_eq_ref (e : FVec Ideal Cert.KernelIdeal.S9992x16 .f32) :
    Cert.FmKer.interVec e = Cert.ReferenceIdeal.Read.val_main_v29 (F := Ideal) e := rfl

end Cert.FmInter

end
-- ==== Proof.LibGatherRow.lean ====
/-
  A general fact about `stablehlo.gather`, over the library only: jnp's `w[0, idx]` on a one-row table.

  Indexing a [1 × N] table with a constant row 0 and a vector of column positions prints as a gather whose start-index table
  is [n × 2] (column 0 the row word, column 1 the column word), with both operand axes collapsed and start-indexed, no
  offset or batching axes and the index vector on axis 1. Result position `p` then reads the table at the two start words of
  row `p` of the start-index table, each read SIGNED and clamped into its axis: the row word into [0, 0], the column word into
  [0, N - 1]. Generic in N, n, the word width and the element type; the four hypotheses are the printed dimension numbers,
  each closed by `rfl` on a printed record.
-/
import Idealize.ShloMosaic.Lib.ValueIdx
import Idealize.ShloMosaic.Lib.StableHlo.Predicate

noncomputable section

namespace Cert.LibGatherRow

open Idealize.ShloMosaic Idealize.ShloMosaic.ValueIdx

/-- A gather from a one-row table [1 × N] by a two-column start-index table [n × 2], both operand axes collapsed and
    start-indexed: result position `p` reads the table at the two start words of row `p`, each read signed and clamped
    into its axis. -/
theorem gather_row {α : Type} {N n w : Nat} (d : GatherDims ⟨2, ![1, N]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![1, N]⟩ : Shape).Idx → α) (idx : IVec ⟨2, ![n, 2]⟩ w) (p : Fin n) (hN : 0 < N) :
    Host.gather d x idx (ix1 p)
      = x (ix2 ⟨min (idx (ix2 p 0)).toInt.toNat (1 - 1), by omega⟩ ⟨min (idx (ix2 p 1)).toInt.toNat (N - 1), by omega⟩) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]; fin_cases a <;> simp
  have hm : ∀ a : Fin 2, a ∈ d.startIndexMap := fun a => by rw [hsim]; fin_cases a <;> simp
  have hsl : ∀ a : Fin 2, d.sliceSizes a = 1 := fun a => d.slice_collapsed a (by rw [hcoll]; fin_cases a <;> simp)
  -- the start-index table is read at row `p`, in the column of the operand axis
  have hsi : ∀ (a : Fin 2) (c : Fin d.startIndexMap.length), c.val = a.val → d.siIdx (ix1 p) c = ix2 p a := by
    intro a c hc
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      exact hc
  simp only [GatherDims.operandIdx, GatherDims.batchCoord_eq_zero _ _ _ (hb a), GatherDims.offCoord_eq_zero _ _ _ (hk a),
    Nat.add_zero, GatherDims.start, dif_pos (hm a)]
  rw [hsi a _ (show List.idxOf a d.startIndexMap = a.val by rw [hsim]; fin_cases a <;> simp), hsl a]
  match a with
  | ⟨0, _⟩ => rfl
  | ⟨1, _⟩ => rfl

end Cert.LibGatherRow

end
-- ==== Proof.RefValue.lean ====
/-
  The reference program's two results read at a batch row.

  The prediction: the reference builds, for each of the two ids, a two-column start-index table (column 0 the zero word,
  column 1 the id moved to its position in the weight row, after NumPy's negative-index rule) and gathers from the
  [1 × 9992] weight row with it. For an id of its field the negative-index rule and the gather's clamp both leave the
  position alone, so the two gathered entries are the weight row at the user's and at the movie's position; the bias, the
  interaction scalar and the logistic function follow elementwise. The flag: the rating column compared with 3.
-/
import proofs.«427124_j82205674045607_3_alg».proof.Proof.Gen.ReferenceIdeal.Read
import proofs.«427124_j82205674045607_3_alg».proof.Proof.Spec
import Idealize.ShloMosaic.Lib.StableHlo.Predicate
import proofs.«427124_j82205674045607_3_alg».proof.Proof.LibGatherRow

noncomputable section

namespace Cert.FmRef

open Idealize.ShloMosaic Idealize.ShloMosaic.TcCoe Idealize.SL.Sem Idealize.ShloMosaic.ValueIdx
open Cert.ReferenceIdeal Cert.ReferenceIdeal.Gen Cert.ReferenceIdeal.Read Cert.LibGatherRow

/-! ## The index tables of the two gathers -/

private theorem idx_out (p : Fin 4194304) : idx_main_v66 (ix2 p (0 : Fin 1)) = ix1 p := by
  funext a; match a with | ⟨0, _⟩ => rfl

/-- Column 0 of the ids, as the flat vector the reference slices off. -/
private theorem v1_at (x0 : IVec S4194304x3 32) (p : Fin 4194304) :
    val_main_v1 (F := Ideal) x0 (ix1 p) = x0 (ix2 p 0) := by
  rw [val_main_v1_apply, val_main_v0_apply]
  congr 1
  funext a
  match a with
  | ⟨0, _⟩ => exact Fin.ext (Nat.div_one _)
  | ⟨1, _⟩ => rfl

/-- Column 1 of the ids. -/
private theorem v3_at (x0 : IVec S4194304x3 32) (p : Fin 4194304) :
    val_main_v3 (F := Ideal) x0 (ix1 p) = x0 (ix2 p 1) := by
  rw [val_main_v3_apply, val_main_v2_apply]
  congr 1
  funext a
  match a with
  | ⟨0, _⟩ => exact Fin.ext (Nat.div_one _)
  | ⟨1, _⟩ => rfl

/-- The user's position in the weight row: the negative-index rule leaves an id of the field alone. -/
private theorem v34_at (x0 : IVec S4194304x3 32) (p : Fin 4194304) (hu : (x0 (ix2 p 0)).toNat < 6040) :
    val_main_v34 (F := Ideal) x0 (ix1 p) = x0 (ix2 p 0) := by
  rw [val_main_v34_apply, val_main_v31_apply, val_main_v33_apply, val_main_v30_apply, val_main_c_5_apply, v1_at]
  exact Cert.FmSpec.wrap_id _ _ (by omega)

/-- The movie's position in the weight row: 6040 past the id, and the negative-index rule leaves it alone. -/
private theorem v47_at (x0 : IVec S4194304x3 32) (p : Fin 4194304) (hm : (x0 (ix2 p 1)).toNat < 3952) :
    val_main_v47 (F := Ideal) x0 (ix1 p) = 6040#32 + x0 (ix2 p 1) := by
  rw [val_main_v47_apply, val_main_v44_apply, val_main_v46_apply, val_main_v43_apply, val_main_c_9_apply,
    val_main_v42_apply, val_main_v41_apply, val_main_c_8_apply, v3_at]
  show Scalar.select (IntOp.cmpi .slt (6040#32 + x0 (ix2 p 1)) 0#32) (IntOp.addi (6040#32 + x0 (ix2 p 1)) _) (6040#32 + x0 (ix2 p 1)) = _
  exact Cert.FmSpec.wrap_id _ _ (by rw [Cert.FmSpec.movie_pos _ hm]; omega)

/-- Column 0 of a start-index table is the zero word. -/
private theorem v39_at0 (x0 : IVec S4194304x3 32) (p : Fin 4194304) :
    val_main_v39 (F := Ideal) x0 (ix2 p 0) = 0#32 := by
  unfold val_main_v39
  rw [concatenate_pair_apply_left (t := S4194304x2) (s₁ := S4194304x1) (s₂ := S4194304x1) (1 : Fin 2)
    (val_main_v37 (F := Ideal)) (val_main_v38 (F := Ideal) x0) _ (ix2 p (0 : Fin 2)) rfl (ix2 p (0 : Fin 1))
    (fun b => match b with | ⟨0, _⟩ => rfl | ⟨1, _⟩ => rfl)]
  rw [val_main_v37_apply, val_main_v36_apply, val_main_v35_apply, val_main_c_7_apply]

/-- Column 1 of the first start-index table is the user's position. -/
private theorem v39_at1 (x0 : IVec S4194304x3 32) (p : Fin 4194304) :
    val_main_v39 (F := Ideal) x0 (ix2 p 1) = val_main_v34 (F := Ideal) x0 (ix1 p) := by
  unfold val_main_v39
  rw [concatenate_pair_apply_right (t := S4194304x2) (s₁ := S4194304x1) (s₂ := S4194304x1) (1 : Fin 2)
    (val_main_v37 (F := Ideal)) (val_main_v38 (F := Ideal) x0) _ (ix2 p (1 : Fin 2)) rfl rfl (ix2 p (0 : Fin 1))
    (fun b hb => match b, hb with | ⟨0, _⟩, _ => rfl | ⟨1, _⟩, hb => absurd rfl hb) rfl]
  rw [val_main_v38_apply]
  congr 1
  funext a; match a with | ⟨0, _⟩ => rfl

private theorem v52_at0 (x0 : IVec S4194304x3 32) (p : Fin 4194304) :
    val_main_v52 (F := Ideal) x0 (ix2 p 0) = 0#32 := by
  unfold val_main_v52
  rw [concatenate_pair_apply_left (t := S4194304x2) (s₁ := S4194304x1) (s₂ := S4194304x1) (1 : Fin 2)
    (val_main_v50 (F := Ideal)) (val_main_v51 (F := Ideal) x0) _ (ix2 p (0 : Fin 2)) rfl (ix2 p (0 : Fin 1))
    (fun b => match b with | ⟨0, _⟩ => rfl | ⟨1, _⟩ => rfl)]
  rw [val_main_v50_apply, val_main_v49_apply, val_main_v48_apply, val_main_c_11_apply]

/-- Column 1 of the second start-index table is the movie's position. -/
private theorem v52_at1 (x0 : IVec S4194304x3 32) (p : Fin 4194304) :
    val_main_v52 (F := Ideal) x0 (ix2 p 1) = val_main_v47 (F := Ideal) x0 (ix1 p) := by
  unfold val_main_v52
  rw [concatenate_pair_apply_right (t := S4194304x2) (s₁ := S4194304x1) (s₂ := S4194304x1) (1 : Fin 2)
    (val_main_v50 (F := Ideal)) (val_main_v51 (F := Ideal) x0) _ (ix2 p (1 : Fin 2)) rfl rfl (ix2 p (0 : Fin 1))
    (fun b hb => match b, hb with | ⟨0, _⟩, _ => rfl | ⟨1, _⟩, hb => absurd rfl hb) rfl]
  rw [val_main_v51_apply]
  congr 1
  funext a; match a with | ⟨0, _⟩ => rfl

/-- The zero word clamped to the one row of the table is row 0. -/
private theorem row0 : min (0#32 : BitVec 32).toInt.toNat (1 - 1) = 0 := by decide

/-! ## The two gathered weights -/

/-- The first gather reads the user's weight. -/
private theorem v40_at (x0 : IVec S4194304x3 32) (x2 : FVec Ideal S1x9992 .f32) (p : Fin 4194304)
    (hu : (x0 (ix2 p 0)).toNat < 6040) :
    val_main_v40 (F := Ideal) x0 x2 (ix1 p) = x2 (ix2 0 (Cert.FmSpec.col (x0 (ix2 p 0)))) := by
  unfold val_main_v40
  rw [gather_row _ rfl rfl rfl rfl x2 _ p (by decide)]
  congr 1
  funext a
  match a with
  | ⟨0, _⟩ => exact Fin.ext (by show min (val_main_v39 (F := Ideal) x0 (ix2 p 0)).toInt.toNat (1 - 1) = 0; rw [v39_at0]; exact row0)
  | ⟨1, _⟩ =>
    exact Fin.ext (by
      show min (val_main_v39 (F := Ideal) x0 (ix2 p 1)).toInt.toNat (9992 - 1) = _
      rw [v39_at1, v34_at x0 p hu]
      exact Cert.FmSpec.clamp_col _ (by omega))

/-- The second gather reads the movie's weight. -/
private theorem v53_at (x0 : IVec S4194304x3 32) (x2 : FVec Ideal S1x9992 .f32) (p : Fin 4194304)
    (hm : (x0 (ix2 p 1)).toNat < 3952) :
    val_main_v53 (F := Ideal) x0 x2 (ix1 p) = x2 (ix2 0 (Cert.FmSpec.col (6040#32 + x0 (ix2 p 1)))) := by
  unfold val_main_v53
  rw [gather_row _ rfl rfl rfl rfl x2 _ p (by decide)]
  congr 1
  funext a
  match a with
  | ⟨0, _⟩ => exact Fin.ext (by show min (val_main_v52 (F := Ideal) x0 (ix2 p 0)).toInt.toNat (1 - 1) = 0; rw [v52_at0]; exact row0)
  | ⟨1, _⟩ =>
    exact Fin.ext (by
      show min (val_main_v52 (F := Ideal) x0 (ix2 p 1)).toInt.toNat (9992 - 1) = _
      rw [v52_at1, v47_at x0 p hm]
      exact Cert.FmSpec.clamp_col _ (by rw [Cert.FmSpec.movie_pos _ hm]; omega))

/-- The bias as a scalar is the bias vector's one entry. -/
private theorem v55_at (x3 : FVec Ideal S1 .f32) : val_main_v55 (F := Ideal) x3 ix0 = x3 (ix1 0) := by
  unfold val_main_v55
  exact shapeCast_apply x3 shapeCasts_S1_S_ ix0 (ix1 0) (by decide)

/-- The rating of row `p`, as the reference's slice of column 2 and its reshape read it. -/
private theorem idx_rec (p : Fin 4194304) :
    idx_main_v4 (idx_main_v5 (idx_main_v9 (ix2 p (0 : Fin 1)))) = ix2 p (2 : Fin 3) := by
  funext a
  match a with
  | ⟨0, _⟩ => exact Fin.ext (Nat.div_one _)
  | ⟨1, _⟩ => rfl

/-! ## The two results at a row -/

/-- The reference's prediction at row `p`, for a row whose ids are ids of their fields. -/
theorem ref_out (x0 : IVec S4194304x3 32) (x1 : FVec Ideal S9992x16 .f32) (x2 : FVec Ideal S1x9992 .f32) (x3 : FVec Ideal S1 .f32)
    (p : Fin 4194304) (hu : (x0 (ix2 p 0)).toNat < 6040) (hm : (x0 (ix2 p 1)).toNat < 3952) :
    val_main_v66 (F := Ideal) x0 x1 x2 x3 (ix2 p 0)
      = Cert.FmSpec.outAt x0 x2 x3 (val_main_v29 (F := Ideal) x1 ix0) p := by
  have h56 : idx_main_v56 (ix1 p) = ix0 := rfl
  have h58 : idx_main_v58 (ix1 p) = ix0 := rfl
  rw [val_main_v66_apply, idx_out, val_main_v65_apply, val_main_v64_apply, val_main_cst_13_apply,
    val_main_v63_apply, val_main_v62_apply, val_main_cst_12_apply, val_main_v61_apply, val_main_v60_apply,
    val_main_v59_apply, val_main_v58_apply, val_main_v57_apply, val_main_v56_apply, val_main_v54_apply,
    v40_at x0 x2 p hu, v53_at x0 x2 p hm, h56, h58, v55_at]
  simp only [Ideal.hostDivf_def, Ideal.addf_def, Ideal.hostUnary_exp_def, Ideal.hostNegf_def, Ideal.negf_def,
    Ideal.ofBits_def]
  rfl

/-- The reference's flag at row `p`. -/
theorem ref_rec (x0 : IVec S4194304x3 32) (p : Fin 4194304) :
    val_main_v9 (F := Ideal) x0 (ix2 p 0) = Cert.FmSpec.recAt x0 p := by
  rw [val_main_v9_apply, val_main_v8_apply, val_main_v7_apply, val_main_v6_apply, val_main_c_apply,
    val_main_v5_apply, val_main_v4_apply, idx_rec]
  rfl

end Cert.FmRef

end
-- ==== Proof.lean ====
/-
  Both programs score 4,194,304 (user, movie, rating) rows of a factorization machine whose pairwise term is a constant:
      out[p] = sigm( w[u_p] + w[6040 + m_p] + b + I ),    rec[p] = 1 if rating_p ≥ 3 else 0,
  with `w` the weight row over 6040 users followed by 3952 movies, `b` the bias, `I` a scalar of the embedding table's
  first two rows, and sigm z = 1 / (1 + e^(-z)).

  The kernel program clips each id to its field, gathers the two weights on the host, and leaves bias, logistic function and
  threshold to one elementwise region over a [32768, 128] layout of the rows; the reference gathers from the weight row with
  NumPy's index rules and applies the same formula. Under the precondition — column 0 holds user ids below 6040, column 1 movie
  ids below 3952 — the clip, the negative-index rule and the gather's clamp all leave the ids alone, so both gathers read
  w[u] and w[6040 + m]; the two sums differ only in grouping, (g₁ + g₂) + (b + I) against ((g₁ + g₂) + b) + I, which is
  associativity of addition on the extended reals and needs no finiteness; the kernel's `0 - z` is the reference's `-z`; and
  the flag is the same bit, widened and read signed in one program, read unsigned in the other.
-/
import proofs.«427124_j82205674045607_3_alg».proof.Defs
import proofs.«427124_j82205674045607_3_alg».proof.Proof.Gen.Kernel
import proofs.«427124_j82205674045607_3_alg».proof.Proof.Gen.Kernel.Frame
import proofs.«427124_j82205674045607_3_alg».proof.Proof.Gen.KernelIdeal
import proofs.«427124_j82205674045607_3_alg».proof.Proof.Gen.KernelIdeal.Frame
import proofs.«427124_j82205674045607_3_alg».proof.Proof.Gen.ReferenceIdeal
import proofs.«427124_j82205674045607_3_alg».proof.Proof.Gen.Pre_finite_inputs
import proofs.«427124_j82205674045607_3_alg».proof.Proof.Gen.ReferenceIdeal.Run
import proofs.«427124_j82205674045607_3_alg».proof.Proof.Gen.ReferenceIdeal.Read
import proofs.«427124_j82205674045607_3_alg».proof.Proof.Spec
import proofs.«427124_j82205674045607_3_alg».proof.Proof.PreRange
import proofs.«427124_j82205674045607_3_alg».proof.Proof.KerHost
import proofs.«427124_j82205674045607_3_alg».proof.Proof.KerBlocks
import proofs.«427124_j82205674045607_3_alg».proof.Proof.KerTail
import proofs.«427124_j82205674045607_3_alg».proof.Proof.Inter
import proofs.«427124_j82205674045607_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no region: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Values

open Cert.KernelIdeal Cert.FmKer

variable (m : (ℓ : Loc Cert.KernelIdeal.nD Cert.KernelIdeal.τ Cert.KernelIdeal.sig) → Buf (Elt Ideal) ℓ)

/-- The kernel program's prediction at row `p` is the specification's, when the row's ids are ids of their fields. -/
theorem ker_out (c : Dev Cert.KernelIdeal.nD) (p : Fin 4194304)
    (hu : (xArr m c (ix2 p 0)).toNat < 6040) (hm : (xArr m c (ix2 p 1)).toNat < 3952) :
    outArr m c (ix2 p 0)
      = Cert.FmSpec.outAt (xArr m c) (wArr m c) (bArr m c) (Cert.ReferenceIdeal.Read.val_main_v29 (F := Ideal) (eArr m c) ix0) p := by
  have hr := row_pos p
  rw [outArr_apply, final_pred]
  unfold predOf pos
  rw [wsum_apply m c _ _ (by rw [hr]; exact hu) (by rw [hr]; exact hm), bias_apply, hr, Cert.FmInter.interVec_eq_ref]
  unfold Cert.FmSpec.outAt
  rw [add_assoc (wArr m c _ + wArr m c _)]

/-- The kernel program's flag at row `p` is the specification's. -/
theorem ker_rec (c : Dev Cert.KernelIdeal.nD) (p : Fin 4194304) :
    recArr m c (ix2 p 0) = Cert.FmSpec.recAt (xArr m c) p := by
  rw [recArr_apply, final_flag]
  unfold flagOf pos
  rw [rat_apply, row_pos]
  rfl

end Values

/-- Run from memories that agree on the four arguments, both programs end with the specification's two arrays. -/
theorem algebraic : Cert.algebraic_KernelIdeal_ReferenceIdeal := by
  intro m ρ m' ρ' hpre hagree
  refine ⟨fun c => Cert.FmKer.outArr m c, fun c => Cert.FmKer.recArr m c, Cert.FmKer.ker_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v66_eq, (hagree c).1, (hagree c).2.1, (hagree c).2.2.1, (hagree c).2.2.2]
    funext i
    obtain ⟨p, q, rfl⟩ : ∃ (p : Fin 4194304) (q : Fin 1), i = ix2 p q := ⟨i 0, i 1, eq_ix2 i⟩
    obtain rfl : q = 0 := Subsingleton.elim _ _
    have hr := Cert.FmPre.ids_in_range _ _ _ _ (hpre c) p
    exact (Cert.FmRef.ref_out _ _ _ _ p hr.1 hr.2).trans (ker_out m c p hr.1 hr.2).symm
  · rw [(h c).2.1, Cert.ReferenceIdeal.Read.val_main_v9_eq, (hagree c).1]
    funext i
    obtain ⟨p, q, rfl⟩ : ∃ (p : Fin 4194304) (q : Fin 1), i = ix2 p q := ⟨i 0, i 1, eq_ix2 i⟩
    obtain rfl : q = 0 := Subsingleton.elim _ _
    exact (Cert.FmRef.ref_rec _ p).trans (ker_rec m c p).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
